-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S640000 32) (main_arg2 : IVec S640000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S50000x128, .f32⟩
  | .hbm, ⟨16, _⟩ => ⟨S640000x1, .i32⟩
  | .hbm, ⟨17, _⟩ => ⟨S50000x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S50000x128, .f32⟩
  | .hbm, ⟨16, _⟩ => ⟨S640000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_1_0_0_n_n_wf : DotDims.WF S50000x128 S128x128 S50000x128 [1] [1] [0] [0] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelPayload.lean ====
/-
  What the kernel body stores, read at an entry of its block.

  At one grid point the body holds a block `x0` of 5000 rows of summed messages, the whole weight matrix `x1` and the
  bias as one row `x2`. It transposes the weights, multiplies the block by the transpose into a zero accumulator,
  adds the bias row to every row and cuts at zero. At row `p` and output feature `j` of the block that is
  `max (∑ a, x0 (p, a) * x1 (j, a) + x2 (0, j)) 0`: the changes of float format are the identity on the extended reals,
  the transpose swaps the two coordinates of the weight it reads, and the product into zero is the plain sum.
-/
import proofs.«102159_j33913061769301_1_alg».proof.Proof.Gen.KernelIdeal.Skeleton
import proofs.«102159_j33913061769301_1_alg».proof.Proof.LibDot2
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## The product's dimension numbers, coordinate by coordinate -/

/-- The left operand is read at the output's row -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and the contracted feature; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted feature -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The stored value at an entry -/

/-- The body's one store, at row `p` and output feature `j` of the block. -/
theorem pay_apply (x0 : Vec Ideal S5000x128 .f32) (x1 : Vec Ideal S128x128 .f32) (x2 : Vec Ideal S1x128 .f32)
    (p : Fin 5000) (j : Fin 128) :
    k0_pay1 (F := Ideal) x0 x1 x2 (ix2 p j)
      = max ((∑ a : Fin 128, x0 (ix2 p a) * x1 (ix2 j a)) + x2 (ix2 (0 : Fin 1) j)) (Ideal.ofBits .f32 0x00000000#32) := by
  unfold k0_pay1
  rw [maximumf_apply, addf_apply, broadcast_apply,
    Cert.Lib.Dot2.matmul_zero_ix2 dot_S5000x128_S128x128_S5000x128_1_0_0_1_n_n none rfl rfl lhs_0 lhs_1 rhs_0 rhs_1,
    broadcastTo_1b_ab_apply]
  have ht : ∀ a : Fin 128, transpose S128x128 [1, 0] (truncf .bf16 x1 bitsLt_bf16_f32 : FVec Ideal S128x128 .bf16)
      transposes_S128x128_p1_0_S128x128 (ix2 a j) = x1 (ix2 j a) := fun a =>
    transpose_ix2_apply (a := 128) (b := 128) (truncf .bf16 x1 bitsLt_bf16_f32 : FVec Ideal S128x128 .bf16) transposes_S128x128_p1_0_S128x128 a j
  simp only [ht, shapeCast_self, truncf_apply]
  rfl

end Cert.KernelIdeal.Hand

end
-- ==== Proof.NodeUpdate.lean ====
/-
  The node update of a message-passing layer, as one function of its arrays.

  After the messages of the edges have been summed into their destination nodes (an array `agg` of 50000 rows of
  128 features), every node `n` gets, for each of the 128 output features `o`,

      update agg W b (n, o) = max (∑ f, agg (n, f) * W (o, f) + b o) 0

  on the extended reals: the rows of `agg` against the rows of the weight matrix `W` (so the product is with the
  transpose of `W`), the bias added, the negative part cut off. The zero of the cut is kept as the float word it is
  printed with; both programs carry the same word, so it is never evaluated.
-/
import Idealize.ShloMosaic.Lib.ValueIdx
import Idealize.ShloMosaic.PureOps.Ideal.Laws

noncomputable section

namespace Cert.NodeUpdate

open Idealize.ShloMosaic Idealize.ShloMosaic.ValueIdx

/-- Nodes by features, the weight matrix, the bias vector. -/
abbrev SNodes : Shape := ⟨2, ![50000, 128]⟩
abbrev SWeight : Shape := ⟨2, ![128, 128]⟩
abbrev SBias : Shape := ⟨1, ![128]⟩

/-- The row of `agg` at node `n` against the row of `W` at output feature `o`. -/
def rowDot (agg : SNodes.Idx → EReal) (W : SWeight.Idx → EReal) (n : Fin 50000) (o : Fin 128) : EReal :=
  ∑ f : Fin 128, agg (ix2 n f) * W (ix2 o f)

/-- The layer's node update: linear map, bias, rectifier. -/
def update (agg : SNodes.Idx → EReal) (W : SWeight.Idx → EReal) (b : SBias.Idx → EReal) : SNodes.Idx → EReal :=
  fun i => max (rowDot agg W (i 0) (i 1) + b (ix1 (i 1))) (Ideal.ofBits .f32 0x00000000#32)

theorem update_apply (agg : SNodes.Idx → EReal) (W : SWeight.Idx → EReal) (b : SBias.Idx → EReal) (n : Fin 50000) (o : Fin 128) :
    update agg W b (ix2 n o) = max ((∑ f : Fin 128, agg (ix2 n f) * W (ix2 o f)) + b (ix1 o)) (Ideal.ofBits .f32 0x00000000#32) := rfl

end Cert.NodeUpdate

end
-- ==== Proof.KernelArray.lean ====
/-
  The kernel's result array, whole.

  The grid has ten points. Point `t` holds rows `5000 t … 5000 t + 4999` of the summed messages, the whole weight
  matrix and the whole bias row, and writes back rows `5000 t … 5000 t + 4999` of the result. So what point `t`
  writes is the same rows of the node update of the arrays as the region finds them, the ten row blocks tile the
  50000 rows, and the result array ends holding the node update. The arrays the region finds are what the host
  operations before it left: the messages gathered at the edges' sources and summed at their destinations, the
  weights as launched, the bias recast as one row.
-/
import proofs.«102159_j33913061769301_1_alg».proof.Proof.Gen.KernelIdeal.Value
import proofs.«102159_j33913061769301_1_alg».proof.Proof.KernelPayload
import proofs.«102159_j33913061769301_1_alg».proof.Proof.NodeUpdate
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The node update over a bias kept as one row -/

/-- A one-row bias read as a vector over the output features. -/
def biasOf (b2 : S1x128.Idx → EReal) : Cert.NodeUpdate.SBias.Idx → EReal := fun i => b2 (ix2 (0 : Fin 1) (i 0))

/-- The stored value at an entry `y` of a block is the node update at an entry `k` of the array, when the block's
    row `y 0` of messages is the array's row `k 0` and the two entries are at the same output feature. -/
theorem pay_eq_update (x0 : Vec Ideal S5000x128 .f32) (x1 : Vec Ideal S128x128 .f32) (x2 : Vec Ideal S1x128 .f32)
    (agg : Cert.NodeUpdate.SNodes.Idx → EReal) (y : S5000x128.Idx) (k : Cert.NodeUpdate.SNodes.Idx)
    (h0 : ∀ a : Fin 128, x0 (ix2 (y 0) a) = agg (ix2 (k 0) a)) (hk : k 1 = y 1) :
    k0_pay1 (F := Ideal) x0 x1 x2 y = Cert.NodeUpdate.update agg x1 (biasOf x2) k := by
  obtain ⟨p, q, rfl⟩ : ∃ (p : Fin 5000) (q : Fin 128), y = ix2 p q := ⟨y 0, y 1, eq_ix2 y⟩
  obtain ⟨n, o, rfl⟩ : ∃ (n : Fin 50000) (o : Fin 128), k = ix2 n o := ⟨k 0, k 1, eq_ix2 k⟩
  have hq : o = q := hk
  subst hq
  have h0' : ∀ a : Fin 128, x0 (ix2 p a) = agg (ix2 n a) := h0
  rw [pay_apply, Cert.NodeUpdate.update_apply]
  simp only [h0']
  rfl

/-! ## The grid's index maps -/

/-- Point `t` takes row block `t` of the messages and of the result, and block (0, 0) of the weights and the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks the body reads -/

/-- The messages' block at point `t` is rows `5000 t …` of the summed messages. -/
theorem msgs_blk (c : Dev nD) (t : Fin cfg0.N) (x : S5000x128.Idx) (k : S50000x128.Idx)
    (hk0 : (k 0).val = 5000 * t.val + (x 0).val) (hk1 : (k 1).val = (x 1).val) :
    (iblk m c 0 t : Vec Ideal S5000x128 .f32) x = (V m c main_v9 : S50000x128.Idx → EReal) k := by
  obtain ⟨e00, e01, -⟩ := idx_facts t
  unfold iblk
  rw [View.read_apply]
  show V m c main_v9 _ = V m c main_v9 _
  congr 1
  funext a
  apply Fin.ext
  match a with
  | ⟨0, _⟩ => show win0_0.index t (0 : Fin 2) * 5000 + 1 * (x 0).val = (k 0).val; rw [e00, hk0]; omega
  | ⟨1, _⟩ => show win0_0.index t (1 : Fin 2) * 128 + 1 * (x 1).val = (k 1).val; rw [e01, hk1]; omega

/-- The weights' block is the weight matrix, at every point. -/
theorem weight_blk (c : Dev nD) (t : Fin cfg0.N) : (iblk m c 1 t : Vec Ideal S128x128 .f32) = (V m c main_arg3 : S128x128.Idx → EReal) := by
  obtain ⟨-, -, e10, e11, -⟩ := idx_facts t
  funext x
  unfold iblk
  rw [View.read_apply]
  show V m c main_arg3 _ = V m c main_arg3 _
  congr 1
  funext a
  apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- The bias block is the bias row, at every point. -/
theorem bias_blk (c : Dev nD) (t : Fin cfg0.N) : (iblk m c 2 t : Vec Ideal S1x128 .f32) = (V m c main_v10 : S1x128.Idx → EReal) := by
  obtain ⟨-, -, -, -, e20, e21, -⟩ := idx_facts t
  funext x
  unfold iblk
  rw [View.read_apply]
  show V m c main_v10 _ = V m c main_v10 _
  congr 1
  funext a
  apply Fin.ext
  match a with
  | ⟨0, _⟩ => show win0_2.index t (0 : Fin 2) * 1 + 1 * (x 0).val = (x 0).val; rw [e20]; omega
  | ⟨1, _⟩ => show win0_2.index t (1 : Fin 2) * 128 + 1 * (x 1).val = (x 1).val; rw [e21]; omega

/-! ## What each point writes back, and the array they tile -/

/-- The node update of the arrays as the region finds them. -/
def target (c : Dev nD) : S50000x128.Idx → EReal :=
  Cert.NodeUpdate.update (V m c main_v9) (V m c main_arg3) (biasOf (V m c main_v10))

/-- Point `t` writes back its row block of `target`. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero hz]
  simp only [View.ld_unit_zero (S := S5000x128) hz, View.ld_unit_zero (S := S128x128) hz, View.ld_unit_zero (S := S1x128) hz]
  rw [weight_blk m c t, bias_blk m c t]
  obtain ⟨-, -, -, -, -, -, e30, e31⟩ := idx_facts t
  funext j
  show k0_pay1 (F := Ideal) (iblk m c 0 t) (V m c main_arg3) (V m c main_v10) j = target m c (((cfg0.win 3).blk t).view.emb j)
  have hj0 : (j 0).val < 5000 := (j 0).isLt
  have hj1 : (j 1).val < 128 := (j 1).isLt
  have hk0 : ((((cfg0.win 3).blk t).view.emb j) 0).val = 5000 * t.val + (j 0).val := by
    show win0_3.index t (0 : Fin 2) * 5000 + 1 * (j 0).val = _; rw [e30]; omega
  have hk1 : ((((cfg0.win 3).blk t).view.emb j) 1).val = (j 1).val := by
    show win0_3.index t (1 : Fin 2) * 128 + 1 * (j 1).val = _; rw [e31]; omega
  unfold target
  refine pay_eq_update (iblk m c 0 t) (V m c main_arg3) (V m c main_v10) (V m c main_v9) j (((cfg0.win 3).blk t).view.emb j) (fun a => ?_) (Fin.ext hk1)
  exact msgs_blk m c t (ix2 (j 0) a) (ix2 ((((cfg0.win 3).blk t).view.emb j) 0) a) hk0 rfl

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Row `r` of the result is in the block of point `r / 5000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- The result array after the run is the node update of the arrays as the region finds them. -/
theorem final (c : Dev nD) : (dats m 0 c).arrAt 3 cfg0.N = target m c :=
  (dats m 0 c).arrAt_eq_of_cover 3 (target m c) (fun t _ => flushed_eq m c t) covered

end Cert.KernelIdeal.Hand

end
-- ==== Proof.KernelRun.lean ====
/-
  The kernel program's run, read.

  Before the region the host gathers the feature row of every edge's source node (a negative source index counted
  from the end, as indexing does), sums the gathered rows into the edges' destination nodes starting from zeros, and
  recasts the bias as one row. So the arrays the region finds are those terms of the arguments, and the result array,
  the node update of what the region finds, is the node update of the summed messages, the weights and the bias.
-/
import proofs.«102159_j33913061769301_1_alg».proof.Proof.KernelArray

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The messages: each edge's source row of the features, summed into the edge's destination node. -/
def summed (x0 : (⟨S50000x128, .f32⟩ : BufTy).Contents (Elt Ideal)) (x1 x2 : (⟨S640000, .i32⟩ : BufTy).Contents (Elt Ideal)) :
    (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 x2)
    (Host.gather gather_S50000x128_S640000x1_S640000x128_1_0_n_n_0_1_1128 x0
      (broadcastInDim S640000x1 ![0] bcast_S640000_S640000x1_0
        (select (cmpi .slt x1 (broadcastInDim S640000 ![] bcast_S_S640000 (constantI S_ 32 0#32)))
          (addi x1 (broadcastInDim S640000 ![] bcast_S_S640000 (constantI S_ 32 50000#32))) x1)))

/-- The region finds the summed messages where the host left them. -/
theorem V_summed (c : Dev nD) : (V m c main_v9 : S50000x128.Idx → EReal)
    = summed (m ((c : Thread nD τ).loc main_arg0)) (m ((c : Thread nD τ).loc main_arg1)) (m ((c : Thread nD τ).loc main_arg2)) := by
  dsimp only [V, hostOps0]
  after_results
  rfl

/-- The region finds the bias recast as one row. -/
theorem V_bias (c : Dev nD) : (V m c main_v10 : S1x128.Idx → EReal)
    = shapeCast S1x128 (m ((c : Thread nD τ).loc main_arg4) : S128.Idx → EReal) shapeCasts_S128_S1x128 := by
  dsimp only [V, hostOps0]
  after_results
  rfl

/-- A vector recast as one row, read back as a vector, is the vector. -/
theorem biasOf_row (b : S128.Idx → EReal) : biasOf (shapeCast S1x128 b shapeCasts_S128_S1x128) = b := by
  funext i
  obtain ⟨o, rfl⟩ : ∃ o : Fin 128, i = ix1 o := ⟨i 0, eq_ix1 i⟩
  exact shapeCast_a_1a_apply b shapeCasts_S128_S1x128 0 o

/-- The result array's contents as a function of the arguments. -/
def result (c : Dev nD) : S50000x128.Idx → EReal :=
  Cert.NodeUpdate.update
    (summed (m ((c : Thread nD τ).loc main_arg0)) (m ((c : Thread nD τ).loc main_arg1)) (m ((c : Thread nD τ).loc main_arg2)))
    (m ((c : Thread nD τ).loc main_arg3)) (m ((c : Thread nD τ).loc main_arg4))

theorem target_eq (c : Dev nD) : target m c = result m c := by
  unfold target result
  rw [V_summed m c, V_main_arg3 m c, V_bias m c, biasOf_row]

/-- The run: the result array at the node update of the summed messages, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (target_eq m c)), (h c).2⟩)
    (Cert.KernelIdeal.Value.run_blocks m ρ)

end Cert.KernelIdeal.Hand

end
-- ==== Proof.RefUpdate.lean ====
/-
  The reference's last stage is the node update.

  Its program sums the edge messages into `agg`, contracts `agg` with the weight matrix along the feature axis of
  both (a product with the transpose), broadcasts the bias over the nodes, adds, and cuts at zero. Read at a node
  `n` and an output feature `o`, stage by stage, that is `max (∑ f, agg (n, f) * W (o, f) + b o) 0`: the function
  `Cert.NodeUpdate.update` of the summed messages, the weights and the bias.
-/
import proofs.«102159_j33913061769301_1_alg».proof.Proof.Gen.ReferenceIdeal.Read
import proofs.«102159_j33913061769301_1_alg».proof.Proof.NodeUpdate

noncomputable section

namespace Cert.ReferenceIdeal.RefValue

open Cert.ReferenceIdeal Cert.ReferenceIdeal.Gen Cert.ReferenceIdeal.Read
open Idealize.ShloMosaic Idealize.ShloMosaic.ValueIdx

/-- The contraction reads the summed messages along node `n`'s row, -/
theorem lidx_eq (n : Fin 50000) (o k : Fin 128) : lidx_main_v10 (ix2 n o) k = ix2 n k :=
  funext fun a => Fin.ext (by match a with | ⟨0, _⟩ => rfl | ⟨1, _⟩ => rfl)

/-- and the weights along output feature `o`'s row. -/
theorem ridx_eq (n : Fin 50000) (o k : Fin 128) : ridx_main_v10 (ix2 n o) k = ix2 o k :=
  funext fun a => Fin.ext (by match a with | ⟨0, _⟩ => rfl | ⟨1, _⟩ => rfl)

/-- The bias, broadcast twice, is read at the output feature. -/
theorem bidx_eq (n : Fin 50000) (o : Fin 128) : idx_main_v11 (idx_main_v12 (ix2 n o)) = ix1 o :=
  funext fun a => Fin.ext (by match a with | ⟨0, _⟩ => rfl)

/-- The reference's result, as a function of its arguments, is the node update of its own summed messages. -/
theorem result_eq (x0 : (⟨S50000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.NodeUpdate.update (val_main_v9 (F := Ideal) x0 x1 x2) x3 x4 := by
  funext i
  obtain ⟨n, o, rfl⟩ : ∃ (n : Fin 50000) (o : Fin 128), i = ix2 n o := ⟨i 0, i 1, eq_ix2 i⟩
  rw [Cert.NodeUpdate.update_apply, val_main_v14_apply, val_main_v13_apply, val_main_v10_apply, val_main_v12_apply,
    val_main_v11_apply, val_main_call0_v0_apply, val_main_call0_cst_apply]
  simp only [lidx_eq, ridx_eq, bidx_eq]
  rfl

end Cert.ReferenceIdeal.RefValue

end
-- ==== Proof.lean ====
/-
  A graph layer's node update, computed two ways, is one function.

  Both programs gather each edge's source row of the node features and sum the gathered rows into the edge's
  destination node, by the same host operations. The kernel then walks the 50000 nodes in ten blocks of 5000 rows:
  each block is multiplied by the transposed weight matrix, the bias row is added, and the negative part is cut off.
  The reference contracts the whole array of summed messages with the weights along the feature axis, adds the
  broadcast bias and cuts at zero. At node `n` and output feature `o` both are

      max (∑ f, agg (n, f) * W (o, f) + b o) 0

  on the extended reals, with the same summed messages `agg`: the changes of float format in the kernel are the
  identity there, the sum over the 128 features is the same sum in the same order, and no law beyond reading each
  operation at an index is used, so the finiteness of the inputs is never opened.
  The three frames are the generated frames (the reference's is its generated run with the result dropped); nothing
  was rewritten when the kernel was idealized, so that claim is trivial.
-/
import proofs.«102159_j33913061769301_1_alg».proof.Defs
import proofs.«102159_j33913061769301_1_alg».proof.Proof.Gen.Kernel
import proofs.«102159_j33913061769301_1_alg».proof.Proof.Gen.Kernel.Skeleton
import proofs.«102159_j33913061769301_1_alg».proof.Proof.Gen.Kernel.Launch
import proofs.«102159_j33913061769301_1_alg».proof.Proof.Gen.Kernel.Points
import proofs.«102159_j33913061769301_1_alg».proof.Proof.Gen.Kernel.Frame
import proofs.«102159_j33913061769301_1_alg».proof.Proof.Gen.KernelIdeal
import proofs.«102159_j33913061769301_1_alg».proof.Proof.Gen.KernelIdeal.Skeleton
import proofs.«102159_j33913061769301_1_alg».proof.Proof.Gen.KernelIdeal.Launch
import proofs.«102159_j33913061769301_1_alg».proof.Proof.Gen.KernelIdeal.Points
import proofs.«102159_j33913061769301_1_alg».proof.Proof.Gen.KernelIdeal.Frame
import proofs.«102159_j33913061769301_1_alg».proof.Proof.Gen.ReferenceIdeal
import proofs.«102159_j33913061769301_1_alg».proof.Proof.Gen.KernelIdeal.Value
import proofs.«102159_j33913061769301_1_alg».proof.Proof.Gen.ReferenceIdeal.Run
import proofs.«102159_j33913061769301_1_alg».proof.Proof.Gen.ReferenceIdeal.Read
import proofs.«102159_j33913061769301_1_alg».proof.Proof.Gen.Pre_finite_inputs
import proofs.«102159_j33913061769301_1_alg».proof.Proof.KernelRun
import proofs.«102159_j33913061769301_1_alg».proof.Proof.RefUpdate
import Idealize.ShloMosaic.Adequacy
import Idealize.ShloMosaic.Init

noncomputable section

namespace Cert.Proof

open Idealize.ShloMosaic Idealize.SL.Sem

/-- The two programs sum the messages by the same operations: the kernel program's term and the reference's stage
    are one term of the three arrays. -/
theorem summed_eq (x0 : (⟨Cert.KernelIdeal.S50000x128, .f32⟩ : BufTy).Contents (Elt Ideal))
    (x1 x2 : (⟨Cert.KernelIdeal.S640000, .i32⟩ : BufTy).Contents (Elt Ideal)) :
    Cert.ReferenceIdeal.Read.val_main_v9 (F := Ideal) x0 x1 x2 = Cert.KernelIdeal.Hand.summed x0 x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the node update of the summed messages (its run, read), the reference's at its
    last stage, which is the node update of its own summed messages: the same term once the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, summed_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
